-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S32x1024x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S1024x1024 : Shape := ⟨2, ![1024, 1024]⟩
abbrev S_ : Shape := ⟨0, ![]⟩
abbrev S1 : Shape := ⟨1, ![1]⟩
abbrev S32768x1024 : Shape := ⟨2, ![32768, 1024]⟩
abbrev S1024x3072 : Shape := ⟨2, ![1024, 3072]⟩
abbrev S1x3072 : Shape := ⟨2, ![1, 3072]⟩
abbrev S32768x3072 : Shape := ⟨2, ![32768, 3072]⟩
abbrev S512x1024 : Shape := ⟨2, ![512, 1024]⟩
abbrev S1x1024 : Shape := ⟨2, ![1, 1024]⟩
abbrev S32x1024x3072 : Shape := ⟨3, ![32, 1024, 3072]⟩

abbrev nBuf : Space → Nat
  | .hbm => 26
  | .vmem => 8
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .i32⟩
  | .hbm, ⟨16, _⟩ => ⟨S1, .i32⟩
  | .hbm, ⟨17, _⟩ => ⟨S3072x1024, .f32⟩
  | .hbm, ⟨18, _⟩ => ⟨S_, .i32⟩
  | .hbm, ⟨19, _⟩ => ⟨S1, .i32⟩
  | .hbm, ⟨20, _⟩ => ⟨S3072x1024, .f32⟩
  | .hbm, ⟨21, _⟩ => ⟨S32768x1024, .f32⟩
  | .hbm, ⟨22, _⟩ => ⟨S1024x3072, .f32⟩
  | .hbm, ⟨23, _⟩ => ⟨S1x3072, .f32⟩
  | .hbm, ⟨24, _⟩ => ⟨S32768x3072, .f32⟩
  | .hbm, ⟨25, _⟩ => ⟨S32x1024x3072, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S1024x1024 : S_.BroadcastsInDim S1024x1024 (![] : Fin 0 → Fin S1024x1024.rank)
  bcast_S_S1 : S_.BroadcastsInDim S1 (![] : Fin 0 → Fin S1.rank)
  shapeCasts_S32x1024x1024_S32768x1024 : S32x1024x1024.ShapeCasts S32768x1024
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x3072_S32x1024x3072 : S32768x3072.ShapeCasts S32x1024x3072
  dot_S1024x16_S16x1024_S1024x1024_1_0_0_1_n_n_wf : DotDims.WF S1024x16 S16x1024 S1024x1024 [1] [0] [0] [1] [] []
  scatter_S3072x1024_S1_S1024x1024_01_n_0_0_wf : ScatterDims.WF S3072x1024 S1 S1024x1024 [0, 1] [] [0] 0
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x3072.size a
  hwx0_3 : ∀ i : grid0.Coords, EltTy.bits .f32 = 32 ∨ (Rect.block (s := S32768x3072) S512x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def scatter_S3072x1024_S1_S1024x1024_01_n_0_0 : ScatterDims S3072x1024 S1 S1024x1024 where
  updateWindowDims := [0, 1]
  insertedWindowDims := []
  scatterDimsToOperandDims := [0]
  indexVectorDim := 0
  wf := scatter_S3072x1024_S1_S1024x1024_01_n_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S32x1024x3072 : Shape := ⟨3, ![32, 1024, 3072]⟩
abbrev S1x1x3072 : Shape := ⟨3, ![1, 1, 3072]⟩
abbrev S32x1024x16 : Shape := ⟨3, ![32, 1024, 16]⟩
abbrev S_ : Shape := ⟨0, ![]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S32x1024x3072, .f32⟩
  | .hbm, ⟨8, _⟩ => ⟨S1x1x3072, .f32⟩
  | .hbm, ⟨9, _⟩ => ⟨S32x1024x3072, .f32⟩
  | .hbm, ⟨10, _⟩ => ⟨S32x1024x3072, .f32⟩
  | .hbm, ⟨11, _⟩ => ⟨S32x1024x16, .f32⟩
  | .hbm, ⟨12, _⟩ => ⟨S32x1024x1024, .f32⟩
  | .hbm, ⟨13, _⟩ => ⟨S_, .f32⟩
  | .hbm, ⟨14, _⟩ => ⟨S32x1024x1024, .f32⟩
  | .hbm, ⟨15, _⟩ => ⟨S32x1024x1024, .f32⟩
  | .hbm, ⟨16, _⟩ => ⟨S32x1024x16, .f32⟩
  | .hbm, ⟨17, _⟩ => ⟨S32x1024x1024, .f32⟩
  | .hbm, ⟨18, _⟩ => ⟨S_, .f32⟩
  | .hbm, ⟨19, _⟩ => ⟨S32x1024x1024, .f32⟩
  | .hbm, ⟨20, _⟩ => ⟨S32x1024x1024, .f32⟩
  | .hbm, ⟨21, _⟩ => ⟨S_, .i32⟩
  | .hbm, ⟨22, _⟩ => ⟨S1, .i32⟩
  | .hbm, ⟨23, _⟩ => ⟨S32x1024x3072, .f32⟩
  | .hbm, ⟨24, _⟩ => ⟨S_, .i32⟩
  | .hbm, ⟨25, _⟩ => ⟨S1, .i32⟩
  | .hbm, ⟨26, _⟩ => ⟨S32x1024x3072, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S32x1024x3072_0_1_2 : S1x1x3072.BroadcastsInDim S32x1024x3072 (![0, 1, 2] : Fin 3 → Fin S32x1024x3072.rank)
  bcast_S_S32x1024x1024 : S_.BroadcastsInDim S32x1024x1024 (![] : Fin 0 → Fin S32x1024x1024.rank)
  bcast_S_S1 : S_.BroadcastsInDim S1 (![] : Fin 0 → Fin S1.rank)
  dot_S32x1024x1024_S3072x1024_S32x1024x3072_2_1_01_0_n_n_wf : DotDims.WF S32x1024x1024 S3072x1024 S32x1024x3072 [2] [1] [0, 1] [0] [] []
  dot_S32x1024x1024_S16x1024_S32x1024x16_2_1_01_0_n_n_wf : DotDims.WF S32x1024x1024 S16x1024 S32x1024x16 [2] [1] [0, 1] [0] [] []
  dot_S32x1024x16_S1024x16_S32x1024x1024_2_1_01_0_n_n_wf : DotDims.WF S32x1024x16 S1024x16 S32x1024x1024 [2] [1] [0, 1] [0] [] []
  scatter_S32x1024x3072_S1_S32x1024x1024_012_n_2_0_wf : ScatterDims.WF S32x1024x3072 S1 S32x1024x1024 [0, 1, 2] [] [2] 0

variable [Facts₀]

def dot_S32x1024x1024_S3072x1024_S32x1024x3072_2_1_01_0_n_n : DotDims S32x1024x1024 S3072x1024 S32x1024x3072 where
  lhsContracting := [2]
  rhsContracting := [1]
  lhsNonContracting := [0, 1]
  rhsNonContracting := [0]
  lhsBatch := []
  rhsBatch := []
  wf := dot_S32x1024x1024_S3072x1024_S32x1024x3072_2_1_01_0_n_n_wf
def dot_S32x1024x1024_S16x1024_S32x1024x16_2_1_01_0_n_n : DotDims S32x1024x1024 S16x1024 S32x1024x16 where
  lhsContracting := [2]
  rhsContracting := [1]
  lhsNonContracting := [0, 1]
  rhsNonContracting := [0]
  lhsBatch := []
  rhsBatch := []
  wf := dot_S32x1024x1024_S16x1024_S32x1024x16_2_1_01_0_n_n_wf
def dot_S32x1024x16_S1024x16_S32x1024x1024_2_1_01_0_n_n : DotDims S32x1024x16 S1024x16 S32x1024x1024 where
  lhsContracting := [2]
  rhsContracting := [1]
  lhsNonContracting := [0, 1]
  rhsNonContracting := [0]
  lhsBatch := []
  rhsBatch := []
  wf := dot_S32x1024x16_S1024x16_S32x1024x1024_2_1_01_0_n_n_wf
def scatter_S32x1024x3072_S1_S32x1024x1024_012_n_2_0 : ScatterDims S32x1024x3072 S1 S32x1024x1024 where
  updateWindowDims := [0, 1, 2]
  insertedWindowDims := []
  scatterDimsToOperandDims := [2]
  indexVectorDim := 0
  wf := scatter_S32x1024x3072_S1_S32x1024x1024_012_n_2_0_wf

class Facts : Prop extends Facts₀ where

variable [Facts]
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.KernelBody.lean ====
import proofs.«110289_j66872640799074_1_alg».proof.Proof.Gen.KernelIdeal.Skeleton
import proofs.«110289_j66872640799074_1_alg».proof.Proof.LibPlainMatmul
import Idealize.ShloMosaic.Lib.ValueIdx
import Idealize.ShloMosaic.Lib.ValueLayout
import Idealize.ShloMosaic.Lib.Pipeline.Value

/-!
  # One block of the kernel's output, entry by entry

  At a grid point the body holds a `[512, 1024]` block `x` of activation rows, a `[1024, 1024]` block `w` of the
  transposed effective weight (contraction axis first) and a `[1, 1024]` block `β` of the bias.  It rounds `x` and `w`
  to bf16 — the identity on the extended reals —, multiplies them into a zero accumulator and adds the bias row to
  every row.  So entry `(p, q)` of the stored block is `Σ_k x[p, k] · w[k, q] + β[0, q]`.
-/

noncomputable section

namespace Cert.KernelIdeal.Body

open Idealize.ShloMosaic Idealize.ShloMosaic.ValueIdx Cert.KernelIdeal Cert.KernelIdeal.Gen
open scoped BigOperators

/-- The stored block at `(p, q)`: the row of `x` against the column of `w`, plus the bias at `q`. -/
theorem pay_apply (x : Vec Ideal S512x1024 .f32) (w : Vec Ideal S1024x1024 .f32) (β : Vec Ideal S1x1024 .f32)
    (p : Fin 512) (q : Fin 1024) :
    k0_pay1 (F := Ideal) x w β (ix2 p q) = (∑ k : Fin 1024, x (ix2 p k) * w (ix2 k q)) + β (ix2 (0 : Fin 1) q) := by
  unfold k0_pay1
  rw [addf_apply, shapeCast_self, shapeCast_self, shapeCast_self,
    Cert.PlainMatmul.matmul_zero_apply dot_S512x1024_S1024x1024_S512x1024_1_0_0_1_n_n rfl rfl rfl rfl rfl rfl,
    broadcastTo_1b_ab_apply]
  rfl

end Cert.KernelIdeal.Body

end
-- ==== Proof.KernelBlocks.lean ====
import proofs.«110289_j66872640799074_1_alg».proof.Proof.Gen.KernelIdeal.Frame
import proofs.«110289_j66872640799074_1_alg».proof.Proof.KernelBody
import Idealize.ShloMosaic.Lib.Pipeline.Value

/-!
  # From the blocks to the whole product

  The region computes a `[32768, 3072]` array in blocks of `[512, 1024]` over a `64 × 3` grid.  At point `(i, j)` it
  sees rows `512·i …` of the activations `X : [32768, 1024]` (all columns), columns `1024·j …` of the transposed weight
  `Wt : [1024, 3072]` (all rows) and of the bias row `β : [1, 3072]`, and writes block `(i, j)` of the result.  Since a
  block's entry `(p, q)` is `Σ_k x[p, k] · w[k, q] + β[0, q]` of the blocks, and the blocks' coordinates are
  `512·i + p` and `1024·j + q` in the arrays, every block is the restriction of ONE array,

      `product X Wt β (r, o) = Σ_k X[r, k] · Wt[k, o] + β[0, o]`,

  and the blocks tile the result; so the result array ends holding `product X Wt β`.
-/

set_option maxRecDepth 16384

noncomputable section

namespace Cert.KernelIdeal.Blocks

open Idealize.ShloMosaic Idealize.ShloMosaic.ValueIdx Idealize.ShloMosaic.TcCoe Cert.KernelIdeal Cert.KernelIdeal.Gen
open Idealize.ShloMosaic.Pipeline (Dat)
open scoped BigOperators

variable (m : (ℓ : Loc nD τ sig) → Buf (Elt Ideal) ℓ)

/-- The whole product with its bias: entry `(r, o)` contracts row `r` of `X` with column `o` of `Wt` and adds `β[0, o]`. -/
def product (X : Vec Ideal S32768x1024 .f32) (Wt : Vec Ideal S1024x3072 .f32) (β : Vec Ideal S1x3072 .f32) :
    Vec Ideal S32768x3072 .f32 :=
  fun i => (∑ k : Fin 1024, X (ix2 ⟨(i 0).val, (i 0).isLt⟩ k) * Wt (ix2 k ⟨(i 1).val, (i 1).isLt⟩))
    + β (ix2 (0 : Fin 1) ⟨(i 1).val, (i 1).isLt⟩)

/-- The three arrays the region finds, at their literal types: the activations as rows, the transposed effective
    weight, and the bias as one row. -/
abbrev rowsX (c : Dev nD) : Vec Ideal S32768x1024 .f32 := V m c main_v10
abbrev weightT (c : Dev nD) : Vec Ideal S1024x3072 .f32 := V m c main_v11
abbrev biasRow (c : Dev nD) : Vec Ideal S1x3072 .f32 := V m c main_v12

/-- An entry of the whole product from one row of activations, one column of weights and one bias entry that are the
    arrays' at the entry's coordinates. -/
theorem entry_of_pieces (X : Vec Ideal S32768x1024 .f32) (Wt : Vec Ideal S1024x3072 .f32) (β : Vec Ideal S1x3072 .f32)
    (i : S32768x3072.Idx) (xr wc : Fin 1024 → EReal) (b : EReal)
    (hx : ∀ k, xr k = X (ix2 ⟨(i 0).val, (i 0).isLt⟩ k)) (hw : ∀ k, wc k = Wt (ix2 k ⟨(i 1).val, (i 1).isLt⟩))
    (hb : b = β (ix2 (0 : Fin 1) ⟨(i 1).val, (i 1).isLt⟩)) :
    (∑ k : Fin 1024, xr k * wc k) + b = product X Wt β i := by
  unfold product
  rw [hb]
  exact congrArg₂ (· + ·) (Finset.sum_congr rfl fun k _ => by rw [hx k, hw k]) rfl

theorem origin : (![0, 0] : Fin 2 → Nat) = fun _ => 0 := funext fun a => by fin_cases a <;> rfl

/-- The index maps over the grid: the activations follow the output's row block and stay at column block 0; the
    weight and the bias stay at row block 0 and follow the output's column block; the output's block indices are in range. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 63 ∧ win0_3.index t (1 : Fin 2) ≤ 2 :=
  (by decide +kernel : ∀ t : Fin grid0.N, _)

/-- Every block of the result is some point's. -/
theorem idx_onto : ∀ (q0 : Fin 64) (q1 : Fin 3), ∃ t : Fin cfg0.N, win0_3.index t = ![q0.val, q1.val] :=
  (by decide +kernel : ∀ (q0 : Fin 64) (q1 : Fin 3), ∃ t : Fin grid0.N, win0_3.index t = ![q0.val, q1.val])

/-- An input window's block read at an index of the block is the window's array at the index the block embeds it to
    (activations, weight, bias in turn). -/
theorem iblk0_at (c : Dev nD) (t : Fin cfg0.N) (y : S512x1024.Idx) :
    iblk m c 0 t y = rowsX m c (((cfg0.win 0).blk t).view.emb y) := by
  unfold iblk
  rw [View.read_apply]
  exact cast_eq _ _

theorem iblk1_at (c : Dev nD) (t : Fin cfg0.N) (y : S1024x1024.Idx) :
    iblk m c 1 t y = weightT m c (((cfg0.win 1).blk t).view.emb y) := by
  unfold iblk
  rw [View.read_apply]
  exact cast_eq _ _

theorem iblk2_at (c : Dev nD) (t : Fin cfg0.N) (y : S1x1024.Idx) :
    iblk m c 2 t y = biasRow m c (((cfg0.win 2).blk t).view.emb y) := by
  unfold iblk
  rw [View.read_apply]
  exact cast_eq _ _

/-- Any array read through the output's block at a point is the array at the embedded index. -/
theorem read3_at (t : Fin cfg0.N) (G : Vec Ideal S32768x3072 .f32) (y : S512x1024.Idx) :
    ((cfg0.win 3).blk t).view.read (Elt Ideal) G y = G (((cfg0.win 3).blk t).view.emb y) := rfl

/-- WHAT POINT `t` WRITES BACK is block `t` of the whole product of the arrays the region finds. -/
theorem flushed_eq (c : Dev nD) (t : Fin cfg0.N) :
    (dats m 0 c).flushed 3 t
      = ((cfg0.win 3).blk t).view.read (Elt Ideal) (product (rowsX m c) (weightT m c) (biasRow m c)) := by
  show (cfg0.win 3).cut (grid0.coords t) ((dats m 0 c).after 3 t) = _
  rw [after0_3]
  unfold out0_3
  rw [View.canon_unit_zero origin]
  simp only [View.ld_unit_zero (S := S512x1024) origin, View.ld_unit_zero (S := S1024x1024) origin,
    View.ld_unit_zero (S := S1x1024) origin]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  refine ((Body.pay_apply (iblk m c 0 t) (iblk m c 1 t) (iblk m c 2 t) p q).trans ?_).trans
    (read3_at t (product (rowsX m c) (weightT m c) (biasRow m c)) (ix2 p q)).symm
  have hp : p.val < 512 := p.isLt
  have hq : q.val < 1024 := q.isLt
  have hx : ∀ k : Fin 1024, ((cfg0.win 0).blk t).view.emb (ix2 p k)
      = ix2 ⟨((((cfg0.win 3).blk t).view.emb (ix2 p q)) 0).val, ((((cfg0.win 3).blk t).view.emb (ix2 p q)) 0).isLt⟩ k := by
    intro k
    have hk : k.val < 1024 := k.isLt
    funext a; apply Fin.ext
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 1024 + 1 * k.val = k.val
      omega
  have hw : ∀ k : Fin 1024, ((cfg0.win 1).blk t).view.emb (ix2 k q)
      = ix2 k ⟨((((cfg0.win 3).blk t).view.emb (ix2 p q)) 1).val, ((((cfg0.win 3).blk t).view.emb (ix2 p q)) 1).isLt⟩ := by
    intro k
    have hk : k.val < 1024 := k.isLt
    funext a; apply Fin.ext
    match a with
    | ⟨0, _⟩ =>
      show win0_1.index t (0 : Fin 2) * 1024 + 1 * k.val = k.val
      omega
    | ⟨1, _⟩ =>
      show win0_1.index t (1 : Fin 2) * 1024 + 1 * q.val = win0_3.index t (1 : Fin 2) * 1024 + 1 * q.val
      omega
  have hb : ((cfg0.win 2).blk t).view.emb (ix2 (0 : Fin 1) q)
      = ix2 (0 : Fin 1) ⟨((((cfg0.win 3).blk t).view.emb (ix2 p q)) 1).val, ((((cfg0.win 3).blk t).view.emb (ix2 p q)) 1).isLt⟩ := by
    funext a; apply Fin.ext
    match a with
    | ⟨0, _⟩ =>
      show win0_2.index t (0 : Fin 2) * 1 + 1 * 0 = 0
      omega
    | ⟨1, _⟩ =>
      show win0_2.index t (1 : Fin 2) * 1024 + 1 * q.val = win0_3.index t (1 : Fin 2) * 1024 + 1 * q.val
      omega
  exact entry_of_pieces (rowsX m c) (weightT m c) (biasRow m c) (((cfg0.win 3).blk t).view.emb (ix2 p q))
    (fun k => iblk m c 0 t (ix2 p k)) (fun k => iblk m c 1 t (ix2 k q)) (iblk m c 2 t (ix2 (0 : Fin 1) q))
    (fun k => (iblk0_at m c t (ix2 p k)).trans (congrArg (rowsX m c) (hx k)))
    (fun k => (iblk1_at m c t (ix2 k q)).trans (congrArg (weightT m c) (hw k)))
    ((iblk2_at m c t (ix2 (0 : Fin 1) q)).trans (congrArg (biasRow m c) hb))

/-- An index of the result is in point `t`'s block iff each coordinate is in the block's range on its axis. -/
theorem mem_blk (t : Fin cfg0.N) (i : S32768x3072.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v13).slice (win0_3.rect t)).set ↔ _
  rw [View.set_slice_whole, Rect.mem_set_unit]
  exact Iff.rfl

/-- The blocks tile the result: the point that covers `(r, o)` is the one at block `(r / 512, o / 1024)`. -/
theorem cover (i : S32768x3072.Idx) :
    ∃ t : Fin cfg0.N, (cfg0.win 3).flush t = true ∧ i ∈ ((cfg0.win 3).blk t).view.set := by
  have hi0 : (i 0).val < 32768 := (i 0).isLt
  have hi1 : (i 1).val < 3072 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE RESULT ARRAY after the region is the whole product of the arrays the region found. -/
theorem final (c : Dev nD) :
    (dats m 0 c).arrAt 3 cfg0.N = product (rowsX m c) (weightT m c) (biasRow m c) :=
  (dats m 0 c).arrAt_eq_of_cover 3 _ (fun t _ => flushed_eq m c t) cover

end Cert.KernelIdeal.Blocks

end
-- ==== Proof.LibScatterFold.lean ====
import Idealize.ShloMosaic.PureOps.ShapeOps

/-!
  # Reading a scatter with any body at one index

  `Host.scatter d f x idx upd` folds over the update positions in row-major order.  The update at position `n`
  either lands at a result index `i` — then the element there becomes `f` of what it was and of the update — or it
  falls outside the operand and is dropped.  For ANY body `f` (a sum, a replacement, a maximum), the fold can be
  read at one result index without running it whenever at most one update lands there:

  * `scatter_apply_of_unique`: if the update index `j₀` lands at `i` and no other does, the result at `i` is
    `f (x i) (upd j₀)` — the operand's element combined once with that update;
  * `scatter_apply_of_none`: if no update index lands at `i`, the result at `i` is the operand's `x i`.

  Both follow from the fold over an arbitrary list of positions WITHOUT REPETITION: positions that do not land at `i`
  leave the element at `i` alone, so the element at `i` changes exactly once, at the one position that lands there.
-/

namespace Cert.ScatterFold

open Idealize.ShloMosaic

variable {s si u : Shape} {w : Nat} {α : Type}

/-- One step of the fold: the update at row-major position `n` combined into the accumulator `r` where it lands,
    or dropped. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of `step` over all update positions, from the operand. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update lands at `i` combines the element there with the update. -/
theorem step_apply_of_hit (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  exact if_pos rfl

/-- A step whose update does not land at `i` leaves the element there alone. -/
theorem step_apply_of_miss (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  generalize d.resultIdx? (u.rowMajor.symm n) idx = o at h ⊢
  match o, h with
  | none, _ => rfl
  | some i₁, h => exact if_neg (fun e => h (by rw [e]))

/-- Folding positions none of which lands at `i` leaves the element at `i` alone. -/
theorem foldl_apply_of_miss (d : ScatterDims s si u) (f : α → α → α) (idx : IVec si w) (upd : u.Idx → α)
    (i : s.Idx) (l : List (Fin u.numel)) (r : s.Idx → α)
    (hmiss : ∀ n ∈ l, d.resultIdx? (u.rowMajor.symm n) idx ≠ some i) :
    l.foldl (step d f idx upd) r i = r i := by
  induction l generalizing r with
  | nil => rfl
  | cons n l ih =>
    rw [List.foldl_cons, ih (step d f idx upd r n) (fun m hm => hmiss m (List.mem_cons_of_mem n hm))]
    exact step_apply_of_miss d f idx upd r n i (hmiss n List.mem_cons_self)

/-- Folding a list without repetition in which exactly the position `n₀` lands at `i`: the element at `i` is
    combined once, with `n₀`'s update. -/
theorem foldl_apply_of_hit_once (d : ScatterDims s si u) (f : α → α → α) (idx : IVec si w) (upd : u.Idx → α)
    (i : s.Idx) (n₀ : Fin u.numel) (h₀ : d.resultIdx? (u.rowMajor.symm n₀) idx = some i)
    (l : List (Fin u.numel)) (r : s.Idx → α) (hnd : l.Nodup) (hmem : n₀ ∈ l)
    (honly : ∀ n ∈ l, d.resultIdx? (u.rowMajor.symm n) idx = some i → n = n₀) :
    l.foldl (step d f idx upd) r i = f (r i) (upd (u.rowMajor.symm n₀)) := by
  induction l generalizing r with
  | nil => exact absurd hmem List.not_mem_nil
  | cons n l ih =>
    obtain ⟨hnl, hl⟩ := List.nodup_cons.1 hnd
    rw [List.foldl_cons]
    by_cases e : n = n₀
    · -- the head is the one position that lands at `i`; nothing in the tail does
      subst e
      rw [foldl_apply_of_miss d f idx upd i l _ (fun m hm hhit =>
        hnl (honly m (List.mem_cons_of_mem n hm) hhit ▸ hm))]
      exact step_apply_of_hit d f idx upd r n i h₀
    · -- the head misses `i`, and the one position is in the tail
      have hmiss : d.resultIdx? (u.rowMajor.symm n) idx ≠ some i := fun hhit => e (honly n List.mem_cons_self hhit)
      have hmem' : n₀ ∈ l := by
        rcases List.mem_cons.1 hmem with e' | hm
        · exact absurd e'.symm e
        · exact hm
      rw [ih (step d f idx upd r n) hl hmem' (fun m hm => honly m (List.mem_cons_of_mem n hm)),
        step_apply_of_miss d f idx upd r n i hmiss]

/-- **A scatter at an index exactly one update lands at.**  If update index `j₀` lands at `i` and it is the only
    one that does, the result at `i` is the operand's element combined with `upd j₀`. -/
theorem scatter_apply_of_unique (d : ScatterDims s si u) (f : α → α → α) (x : s.Idx → α) (idx : IVec si w)
    (upd : u.Idx → α) (i : s.Idx) (j₀ : u.Idx) (h₀ : d.resultIdx? j₀ idx = some i)
    (honly : ∀ j, d.resultIdx? j idx = some i → j = j₀) :
    Host.scatter d f x idx upd i = f (x i) (upd j₀) := by
  rw [scatter_eq_foldl]
  have h₀' : d.resultIdx? (u.rowMajor.symm (u.rowMajor j₀)) idx = some i := by
    rw [Equiv.symm_apply_apply]; exact h₀
  rw [foldl_apply_of_hit_once d f idx upd i (u.rowMajor j₀) h₀' (List.finRange u.numel) x
    (List.nodup_finRange _) (List.mem_finRange _)
    (fun n _ hn => by
      have := honly (u.rowMajor.symm n) hn
      rw [← this, Equiv.apply_symm_apply]),
    Equiv.symm_apply_apply]

/-- **A scatter at an index no update lands at.**  The result there is the operand's element. -/
theorem scatter_apply_of_none (d : ScatterDims s si u) (f : α → α → α) (x : s.Idx → α) (idx : IVec si w)
    (upd : u.Idx → α) (i : s.Idx) (hnone : ∀ j, d.resultIdx? j idx ≠ some i) :
    Host.scatter d f x idx upd i = x i := by
  rw [scatter_eq_foldl]
  exact foldl_apply_of_miss d f idx upd i (List.finRange u.numel) x (fun n _ => hnone _)

/-- **A scatter whose updates land injectively, read on the image.**  If every update index `j` lands at `φ j` and
    `φ` is injective, the result at `φ j₀` is the operand's element there combined with `upd j₀`. -/
theorem scatter_apply_image (d : ScatterDims s si u) (f : α → α → α) (x : s.Idx → α) (idx : IVec si w)
    (upd : u.Idx → α) (φ : u.Idx → s.Idx) (hφ : ∀ j, d.resultIdx? j idx = some (φ j)) (hinj : Function.Injective φ)
    (j₀ : u.Idx) : Host.scatter d f x idx upd (φ j₀) = f (x (φ j₀)) (upd j₀) :=
  scatter_apply_of_unique d f x idx upd (φ j₀) j₀ (hφ j₀)
    (fun j hj => hinj (Option.some.inj ((hφ j).symm.trans hj)))

/-- **The same scatter read off the image.**  At a result index that is no `φ j`, the operand's element is kept. -/
theorem scatter_apply_off_image (d : ScatterDims s si u) (f : α → α → α) (x : s.Idx → α) (idx : IVec si w)
    (upd : u.Idx → α) (φ : u.Idx → s.Idx) (hφ : ∀ j, d.resultIdx? j idx = some (φ j))
    (i : s.Idx) (hi : ∀ j, φ j ≠ i) : Host.scatter d f x idx upd i = x i :=
  scatter_apply_of_none d f x idx upd i (fun j hj => hi j (Option.some.inj ((hφ j).symm.trans hj)))

end Cert.ScatterFold
-- ==== Proof.WeightScatter.lean ====
import proofs.«110289_j66872640799074_1_alg».proof.Proof.Gen.KernelIdeal
import proofs.«110289_j66872640799074_1_alg».proof.Proof.LibScatterFold
import Idealize.ShloMosaic.Lib.ValueIdx

/-!
  # Adding a block of rows into the weight matrix

  The kernel's host code adds a `[1024, 1024]` update into the `[3072, 1024]` weight at a row offset `B` (rows
  `B … B + 1023`, all columns): a scatter with one start index, whose window is the whole update.  Update element
  `(p, q)` lands at row `B + p`, column `q`; distinct update elements land at distinct places.  So the result at
  `(o, k)` is the weight's element plus the update's element `(o - B, k)` when `B ≤ o < B + 1024`, and the weight's
  element otherwise.
-/

noncomputable section

namespace Cert.KernelIdeal.WeightScatter

open Idealize.ShloMosaic Idealize.ShloMosaic.ValueIdx Cert.KernelIdeal Cert.KernelIdeal.Gen

/-- The scatter's dimension numbers: both update axes are window axes, the one start component names operand axis 0. -/
abbrev D := scatter_S3072x1024_S1_S1024x1024_01_n_0_0

theorem start_0 (j : S1024x1024.Idx) (idx : IVec S1 32) (B : Int) (hidx : ∀ k, (idx k).toInt = B) :
    D.start j idx 0 = B := by
  unfold ScatterDims.start
  rw [dif_pos (show (0 : Fin S3072x1024.rank) ∈ D.scatterDimsToOperandDims by decide)]
  exact hidx _

theorem start_1 (j : S1024x1024.Idx) (idx : IVec S1 32) : D.start j idx 1 = 0 := by
  unfold ScatterDims.start
  rw [dif_neg (show ¬ (1 : Fin S3072x1024.rank) ∈ D.scatterDimsToOperandDims by decide)]

theorem window_0 (j : S1024x1024.Idx) : D.window j 0 = (j 0).val := by
  unfold ScatterDims.window
  rw [dif_pos (show (0 : Fin S3072x1024.rank) ∈ D.sKept by decide)]
  rfl

theorem window_1 (j : S1024x1024.Idx) : D.window j 1 = (j 1).val := by
  unfold ScatterDims.window
  rw [dif_pos (show (1 : Fin S3072x1024.rank) ∈ D.sKept by decide)]
  rfl

/-- Where update element `j` lands when the rows start at `B`: row `B + j 0`, column `j 1`. -/
def land (B : Nat) (hB : B + 1024 ≤ 3072) (j : S1024x1024.Idx) : S3072x1024.Idx :=
  ix2 ⟨B + (j 0).val, by have : (j 0).val < 1024 := (j 0).isLt; omega⟩ ⟨(j 1).val, (j 1).isLt⟩

theorem land_injective (B : Nat) (hB : B + 1024 ≤ 3072) : Function.Injective (land B hB) := by
  intro j j' h
  have h0 : B + (j 0).val = B + (j' 0).val := congrArg (fun i : S3072x1024.Idx => (i 0).val) h
  have h1 : (j 1).val = (j' 1).val := congrArg (fun i : S3072x1024.Idx => (i 1).val) h
  rw [eq_ix2 j, eq_ix2 j']
  congr 1
  · exact Fin.ext (by omega)
  · exact Fin.ext h1

/-- Every update element lands inside the weight, at `land B j`. -/
theorem resultIdx_eq (B : Nat) (hB : B + 1024 ≤ 3072) (idx : IVec S1 32) (hidx : ∀ k, (idx k).toInt = (B : Int))
    (j : S1024x1024.Idx) : D.resultIdx? j idx = some (land B hB j) := by
  have hj0 : (j 0).val < 1024 := (j 0).isLt
  have hj1 : (j 1).val < 1024 := (j 1).isLt
  have hs0 : S3072x1024.size 0 = 3072 := rfl
  have hs1 : S3072x1024.size 1 = 1024 := rfl
  unfold ScatterDims.resultIdx?
  have h : ∀ a, 0 ≤ D.start j idx a + D.window j a ∧ D.start j idx a + D.window j a < S3072x1024.size a := by
    refine Fin.forall_fin_two.2 ⟨?_, ?_⟩
    · rw [start_0 j idx B hidx, window_0, hs0]; omega
    · rw [start_1, window_1, hs1]; omega
  rw [dif_pos h]
  refine congrArg some (funext fun a => Fin.ext ?_)
  match a with
  | ⟨0, _⟩ =>
    show (D.start j idx 0 + D.window j 0).toNat = B + (j 0).val
    rw [start_0 j idx B hidx, window_0]; omega
  | ⟨1, _⟩ =>
    show (D.start j idx 1 + D.window j 1).toNat = (j 1).val
    rw [start_1, window_1]; omega

variable {α : Type}

/-- Inside the row range the weight's element is combined with the update's element `(o - B, k)`. -/
theorem scatter_rows_in (f : α → α → α) (x : S3072x1024.Idx → α) (B : Nat) (hB : B + 1024 ≤ 3072) (idx : IVec S1 32)
    (hidx : ∀ k, (idx k).toInt = (B : Int)) (upd : S1024x1024.Idx → α) (o : Fin 3072) (k : Fin 1024)
    (p : Fin 1024) (hp : o.val = B + p.val) :
    Host.scatter D f x idx upd (ix2 o k) = f (x (ix2 o k)) (upd (ix2 p k)) := by
  have e : (ix2 o k : S3072x1024.Idx) = land B hB (ix2 p k) := by
    unfold land
    congr 1
    exact Fin.ext hp
  rw [e]
  exact Cert.ScatterFold.scatter_apply_image D f x idx upd (land B hB) (resultIdx_eq B hB idx hidx)
    (land_injective B hB) (ix2 p k)

/-- Outside the row range the weight's element is kept. -/
theorem scatter_rows_out (f : α → α → α) (x : S3072x1024.Idx → α) (B : Nat) (hB : B + 1024 ≤ 3072) (idx : IVec S1 32)
    (hidx : ∀ k, (idx k).toInt = (B : Int)) (upd : S1024x1024.Idx → α) (o : Fin 3072) (k : Fin 1024)
    (ho : o.val < B ∨ B + 1024 ≤ o.val) :
    Host.scatter D f x idx upd (ix2 o k) = x (ix2 o k) := by
  refine Cert.ScatterFold.scatter_apply_off_image D f x idx upd (land B hB) (resultIdx_eq B hB idx hidx) _ ?_
  intro j hj
  have h0 : B + (j 0).val = o.val := congrArg (fun i : S3072x1024.Idx => (i 0).val) hj
  have : (j 0).val < 1024 := (j 0).isLt
  omega

end Cert.KernelIdeal.WeightScatter

end
-- ==== Proof.LibPlainDot.lean ====
/-
  The host's matrix product read at an index, on the extended reals.

  For dimension numbers that contract the left operand's axis 1 with the right operand's axis 0, keep the left
  operand's axis 0 and the right operand's axis 1 as the result's two axes in that order, and have no batch axis
  — an `[M, K]` array times a `[K, N]` array —, the host's `dot_general` has at `(a, v)` the entry
  `Σ_k lhs[a, k] · rhs[k, v]`, the sum taken over the `K` contraction positions in their natural order: the same
  sum, term for term and in the same order, that a product into a zero accumulator has for such dimension numbers.
  The library states the entry as a sum over the record's own contraction index set, with the operands read at the
  record's index maps; the maps are evaluated axis by axis and the sum re-indexed by the one contraction coordinate.
-/
import Idealize.ShloMosaic.PureOps.Ideal.Laws
import Idealize.ShloMosaic.Lib.ValueIdx
import proofs.«110289_j66872640799074_1_alg».proof.Proof.LibPlainMatmul

noncomputable section

namespace Cert.PlainDot

open Idealize.ShloMosaic Idealize.ShloMosaic.ValueIdx
open scoped BigOperators

variable {M K N : ℕ} (d : DotDims ⟨2, ![M, K]⟩ ⟨2, ![K, N]⟩ ⟨2, ![M, N]⟩)

/-- THE ENTRY of the host's product at `(a, v)`: the sum over `k` of `lhs[a, k] · rhs[k, v]`. -/
theorem dotGeneral_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    Host.dotGeneral d prec lhs rhs (ix2 a v) = ∑ k : Fin K, lhs (ix2 a k) * rhs (ix2 k v) := by
  show FloatOps.dotGeneral d prec .single lhs rhs (ix2 a v) = _
  rw [Ideal.dotGeneral_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact Cert.PlainMatmul.lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact Cert.PlainMatmul.rhs_col d hlb hrb hln hrn _ _
  rw [e1, e2]

end Cert.PlainDot

end
-- ==== Proof.LoraLaw.lean ====
import Idealize.ShloMosaic.PureOps.Ideal.Laws

/-!
  # Folding a low-rank update into the weight

  For one output element, with `x` a row of activations, `w` the matching row of the dense weight, `A` and `B` the
  low-rank factors and `β` the bias, all real numbers:

    Σ_d x_d · (w_d + 1 · Σ_r B_r · A_{r,d}) + β  =  (Σ_d x_d · w_d + β) + (Σ_r (Σ_d x_d · A_{r,d}) · B_r) · 1.

  The left side contracts the activations with the weight AFTER the rank-`R` product was added to it; the right side
  adds the low-rank path's output to the dense projection.  It is distributivity of the product over the sums and an
  exchange of the two summations, so it is a law of the real numbers; on the extended reals it is used where every
  entry is a real number.  The factor `1` is the scaling `alpha / rank`, a float constant that denotes the number one.
-/

noncomputable section

namespace Cert.LoraLaw

open Idealize.ShloMosaic
open scoped BigOperators

/-- The float constant `1.0` denotes the number one. -/
theorem ofBits_one : Ideal.ofBits .f32 0x3F800000#32 = 1 := by
  simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem fold_real {D R : Type} [Fintype D] [Fintype R] (x w : D → ℝ) (A : R → D → ℝ) (B : R → ℝ) (β : ℝ) :
    (∑ d, x d * (w d + 1 * ∑ r, B r * A r d)) + β = ((∑ d, x d * w d) + β) + (∑ r, (∑ d, x d * A r d) * B r) * 1 := by
  have h : ∑ d, x d * (w d + 1 * ∑ r, B r * A r d) = (∑ d, x d * w d) + ∑ r, (∑ d, x d * A r d) * B r := by
    simp only [one_mul, mul_add, Finset.sum_add_distrib, Finset.mul_sum, Finset.sum_mul]
    congr 1
    rw [Finset.sum_comm]
    refine Finset.sum_congr rfl fun r _ => Finset.sum_congr rfl fun d _ => ?_
    ring
  rw [h]; ring

/-- The law on the extended reals, at real entries. -/
theorem fold {D R : Type} [Fintype D] [Fintype R] (x w : D → ℝ) (A : R → D → ℝ) (B : R → ℝ) (β : ℝ) :
    (∑ d, (x d : EReal) * ((w d : EReal) + (1 : EReal) * ∑ r, (B r : EReal) * (A r d : EReal))) + (β : EReal)
      = ((∑ d, (x d : EReal) * (w d : EReal)) + (β : EReal))
        + (∑ r, (∑ d, (x d : EReal) * (A r d : EReal)) * (B r : EReal)) * (1 : EReal) := by
  have h1 : (1 : EReal) = ((1 : ℝ) : EReal) := rfl
  simp only [h1, ← EReal.coe_mul, ← coe_sum, ← EReal.coe_add]
  exact congrArg _ (fold_real x w A B β)

/-- Without a low-rank path the two sides are the same expression. -/
theorem plain {D : Type} [Fintype D] (x w : D → EReal) (β : EReal) : (∑ d, x d * w d) + β = (∑ d, x d * w d) + β := rfl

end Cert.LoraLaw

end
-- ==== Proof.EffWeight.lean ====
import proofs.«110289_j66872640799074_1_alg».proof.Proof.WeightScatter
import proofs.«110289_j66872640799074_1_alg».proof.Proof.LibPlainDot
import proofs.«110289_j66872640799074_1_alg».proof.Proof.LoraLaw
import Idealize.ShloMosaic.Lib.ValueIdx

/-!
  # The effective weight

  Before its one matrix product the kernel folds the two low-rank updates into the dense weight `W : [3072, 1024]`:
  the query rows `0 … 1023` get `1 · (B_q · A_q)`, the value rows `2048 … 3071` get `1 · (B_v · A_v)`, the key rows are
  left alone.  Entry `(o, k)` of the result is therefore

    * `W[o, k] + 1 · Σ_r B_q[o, r] · A_q[r, k]`          for `o < 1024`,
    * `W[o, k]`                                         for `1024 ≤ o < 2048`,
    * `W[o, k] + 1 · Σ_r B_v[o - 2048, r] · A_v[r, k]`   for `2048 ≤ o`,

  on the extended reals, the sums over the rank `r < 16`.
-/

noncomputable section

namespace Cert.KernelIdeal.EffWeight

open Idealize.ShloMosaic Idealize.ShloMosaic.ValueIdx Cert.KernelIdeal Cert.KernelIdeal.Gen
open scoped BigOperators

variable {F : FTy → Type} [FloatOps F]

/-- The one start index of a scatter, as the program builds it: a constant word broadcast to a vector of one. -/
def startAt (b : BitVec 32) : IVec S1 32 := broadcastInDim S1 ![] bcast_S_S1 (constantI S_ 32 b)

/-- A low-rank update scaled by the constant one: `1 · (B · A)`, a `[1024, 1024]` array. -/
def delta (B : FVec F S1024x16 .f32) (A : FVec F S16x1024 .f32) : FVec F S1024x1024 .f32 :=
  mulf (broadcastInDim S1024x1024 ![] bcast_S_S1024x1024 (constant S_ .f32 0x3F800000#32))
    (Host.dotGeneral dot_S1024x16_S16x1024_S1024x1024_1_0_0_1_n_n (some .fp32) B A)

/-- The weight with the query update added at row 0 and then the value update added at row 2048. -/
def weff (W : FVec F S3072x1024 .f32) (Aq : FVec F S16x1024 .f32) (Bq : FVec F S1024x16 .f32)
    (Av : FVec F S16x1024 .f32) (Bv : FVec F S1024x16 .f32) : FVec F S3072x1024 .f32 :=
  Host.scatter scatter_S3072x1024_S1_S1024x1024_01_n_0_0 FloatOps.addf
    (Host.scatter scatter_S3072x1024_S1_S1024x1024_01_n_0_0 FloatOps.addf W (startAt 0#32) (delta Bq Aq))
    (startAt 2048#32) (delta Bv Av)

theorem startAt_zero (k : S1.Idx) : ((startAt 0#32) k).toInt = ((0 : Nat) : Int) := by
  show (0#32 : BitVec 32).toInt = _
  decide

theorem startAt_2048 (k : S1.Idx) : ((startAt 2048#32) k).toInt = ((2048 : Nat) : Int) := by
  show (2048#32 : BitVec 32).toInt = _
  decide

/-- The scaled low-rank update at `(p, k)`. -/
theorem delta_apply (B : FVec Ideal S1024x16 .f32) (A : FVec Ideal S16x1024 .f32) (p k : Fin 1024) :
    delta B A (ix2 p k) = (1 : EReal) * ∑ r : Fin 16, B (ix2 p r) * A (ix2 r k) := by
  unfold delta
  rw [mulf_apply, Cert.PlainDot.dotGeneral_apply dot_S1024x16_S16x1024_S1024x1024_1_0_0_1_n_n rfl rfl rfl rfl rfl rfl]
  show Ideal.ofBits .f32 0x3F800000#32 * _ = _
  rw [Cert.LoraLaw.ofBits_one]

/-- A query row of the effective weight. -/
theorem weff_query (W : FVec Ideal S3072x1024 .f32) (Aq : FVec Ideal S16x1024 .f32) (Bq : FVec Ideal S1024x16 .f32)
    (Av : FVec Ideal S16x1024 .f32) (Bv : FVec Ideal S1024x16 .f32) (o : Fin 3072) (k : Fin 1024) (p : Fin 1024)
    (hp : o.val = p.val) :
    weff W Aq Bq Av Bv (ix2 o k) = W (ix2 o k) + (1 : EReal) * ∑ r : Fin 16, Bq (ix2 p r) * Aq (ix2 r k) := by
  have hp' : p.val < 1024 := p.isLt
  unfold weff
  rw [WeightScatter.scatter_rows_out FloatOps.addf _ 2048 (by omega) (startAt 2048#32) startAt_2048 _ o k (Or.inl (by omega)),
    WeightScatter.scatter_rows_in FloatOps.addf _ 0 (by omega) (startAt 0#32) startAt_zero _ o k p (by omega),
    delta_apply]
  rfl

/-- A key row of the effective weight. -/
theorem weff_key (W : FVec Ideal S3072x1024 .f32) (Aq : FVec Ideal S16x1024 .f32) (Bq : FVec Ideal S1024x16 .f32)
    (Av : FVec Ideal S16x1024 .f32) (Bv : FVec Ideal S1024x16 .f32) (o : Fin 3072) (k : Fin 1024)
    (h1 : 1024 ≤ o.val) (h2 : o.val < 2048) :
    weff W Aq Bq Av Bv (ix2 o k) = W (ix2 o k) := by
  unfold weff
  rw [WeightScatter.scatter_rows_out FloatOps.addf _ 2048 (by omega) (startAt 2048#32) startAt_2048 _ o k (Or.inl (by omega)),
    WeightScatter.scatter_rows_out FloatOps.addf _ 0 (by omega) (startAt 0#32) startAt_zero _ o k (Or.inr (by omega))]

/-- A value row of the effective weight. -/
theorem weff_value (W : FVec Ideal S3072x1024 .f32) (Aq : FVec Ideal S16x1024 .f32) (Bq : FVec Ideal S1024x16 .f32)
    (Av : FVec Ideal S16x1024 .f32) (Bv : FVec Ideal S1024x16 .f32) (o : Fin 3072) (k : Fin 1024) (p : Fin 1024)
    (hp : o.val = 2048 + p.val) :
    weff W Aq Bq Av Bv (ix2 o k) = W (ix2 o k) + (1 : EReal) * ∑ r : Fin 16, Bv (ix2 p r) * Av (ix2 r k) := by
  unfold weff
  rw [WeightScatter.scatter_rows_in FloatOps.addf _ 2048 (by omega) (startAt 2048#32) startAt_2048 _ o k p hp,
    WeightScatter.scatter_rows_out FloatOps.addf _ 0 (by omega) (startAt 0#32) startAt_zero _ o k (Or.inr (by omega)),
    delta_apply]
  rfl

end Cert.KernelIdeal.EffWeight

end
-- ==== Proof.KernelValue.lean ====
import proofs.«110289_j66872640799074_1_alg».proof.Proof.KernelBlocks
import proofs.«110289_j66872640799074_1_alg».proof.Proof.EffWeight
import Idealize.ShloMosaic.Lib.StableHlo.Run
import Idealize.ShloMosaic.Lib.ValueLayout
import Idealize.ShloMosaic.Lib.Pipeline.Value

/-!
  # The kernel's result as one function of its arguments

  Around the region the host code only re-lays arrays: the activations `x : [32, 1024, 1024]` are flattened to
  `[32768, 1024]` rows, the effective weight `[3072, 1024]` is transposed, the bias `[3072]` becomes one row, and the
  region's `[32768, 3072]` product is unflattened to `[32, 1024, 3072]`.  So the result at `(a, n, o)` is row
  `1024·a + n` of the product at column `o`:

      `Σ_k x[a, n, k] · Weff[o, k] + b[o]`.
-/

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Idealize.SL.Sem
open scoped BigOperators

/-- The result as a function of the seven argument arrays: the host's re-layings around the whole product. -/
def result (x : Vec Ideal S32x1024x1024 .f32) (W : Vec Ideal S3072x1024 .f32) (b : Vec Ideal S3072 .f32)
    (Aq : Vec Ideal S16x1024 .f32) (Bq : Vec Ideal S1024x16 .f32) (Av : Vec Ideal S16x1024 .f32)
    (Bv : Vec Ideal S1024x16 .f32) : Vec Ideal S32x1024x3072 .f32 :=
  shapeCast S32x1024x3072
    (Blocks.product (shapeCast S32768x1024 x shapeCasts_S32x1024x1024_S32768x1024)
      (transpose S1024x3072 [1, 0] (EffWeight.weff (F := Ideal) W Aq Bq Av Bv) transposes_S3072x1024_S1024x3072_1_0)
      (shapeCast S1x3072 b shapeCasts_S3072_S1x3072))
    shapeCasts_S32768x3072_S32x1024x3072

/-- Row `1024·a + n` of the flattened activations is row `(a, n)` of the activations. -/
theorem rows_apply {α : Type} (x : S32x1024x1024.Idx → α) (a : Fin 32) (n k : Fin 1024)
    (h : a.val * 1024 + n.val < 32768) :
    shapeCast S32768x1024 x shapeCasts_S32x1024x1024_S32768x1024 (ix2 ⟨a.val * 1024 + n.val, h⟩ k) = x (ix3 a n k) :=
  shapeCast_apply x _ _ _ (by
    rw [Shape.rowMajor_val_two, Shape.rowMajor_val_three]
    rfl)

/-- Entry `(a, n, o)` of the unflattened product is row `1024·a + n`, column `o` of the product. -/
theorem unflatten_apply {α : Type} (y : S32768x3072.Idx → α) (a : Fin 32) (n : Fin 1024) (o : Fin 3072)
    (h : a.val * 1024 + n.val < 32768) :
    shapeCast S32x1024x3072 y shapeCasts_S32768x3072_S32x1024x3072 (ix3 a n o) = y (ix2 ⟨a.val * 1024 + n.val, h⟩ o) :=
  shapeCast_apply y _ _ _ (by
    rw [Shape.rowMajor_val_two, Shape.rowMajor_val_three]
    rfl)

/-- THE RESULT at `(a, n, o)`: the activation row `(a, n)` against row `o` of the effective weight, plus the bias at `o`. -/
theorem result_apply (x : Vec Ideal S32x1024x1024 .f32) (W : Vec Ideal S3072x1024 .f32) (b : Vec Ideal S3072 .f32)
    (Aq : Vec Ideal S16x1024 .f32) (Bq : Vec Ideal S1024x16 .f32) (Av : Vec Ideal S16x1024 .f32)
    (Bv : Vec Ideal S1024x16 .f32) (a : Fin 32) (n : Fin 1024) (o : Fin 3072) :
    result x W b Aq Bq Av Bv (ix3 a n o)
      = (∑ k : Fin 1024, x (ix3 a n k) * EffWeight.weff (F := Ideal) W Aq Bq Av Bv (ix2 o k)) + b (ix1 o) := by
  have h : a.val * 1024 + n.val < 32768 := by have := a.isLt; have := n.isLt; omega
  unfold result
  rw [unflatten_apply _ a n o h]
  unfold Blocks.product
  show (∑ k : Fin 1024, shapeCast S32768x1024 x shapeCasts_S32x1024x1024_S32768x1024 (ix2 ⟨a.val * 1024 + n.val, h⟩ k)
        * transpose S1024x3072 [1, 0] (EffWeight.weff (F := Ideal) W Aq Bq Av Bv) transposes_S3072x1024_S1024x3072_1_0 (ix2 k o))
      + shapeCast S1x3072 b shapeCasts_S3072_S1x3072 (ix2 (0 : Fin 1) o) = _
  rw [shapeCast_a_1a_apply]
  refine congrArg₂ (· + ·) (Finset.sum_congr rfl fun k _ => ?_) rfl
  rw [rows_apply x a n k h, transpose_ix2_apply]

variable (m : (ℓ : Loc nD τ sig) → Buf (Elt Ideal) ℓ) (ρ : Dev nD → PrngReg)

/-- The activations as the region finds them: the argument flattened to rows. -/
theorem rowsX_eq (c : Dev nD) : Blocks.rowsX m c
    = shapeCast S32768x1024 (m ((c : Thread nD τ).loc main_arg0)) shapeCasts_S32x1024x1024_S32768x1024 := by
  show StableHlo.after hostOps0 (fun b => m (c, b)) (Proc.devRef .tc main_v10) = _
  after_results
  rfl

/-- The weight as the region finds it: the effective weight, transposed. -/
theorem weightT_eq (c : Dev nD) : Blocks.weightT m c
    = transpose S1024x3072 [1, 0] (EffWeight.weff (F := Ideal) (m ((c : Thread nD τ).loc main_arg1)) (m ((c : Thread nD τ).loc main_arg3))
        (m ((c : Thread nD τ).loc main_arg4)) (m ((c : Thread nD τ).loc main_arg5)) (m ((c : Thread nD τ).loc main_arg6)))
        transposes_S3072x1024_S1024x3072_1_0 := by
  show StableHlo.after hostOps0 (fun b => m (c, b)) (Proc.devRef .tc main_v11) = _
  after_results
  rfl

/-- The bias as the region finds it: the argument as one row. -/
theorem biasRow_eq (c : Dev nD) : Blocks.biasRow m c
    = shapeCast S1x3072 (m ((c : Thread nD τ).loc main_arg2)) shapeCasts_S3072_S1x3072 := by
  show StableHlo.after hostOps0 (fun b => m (c, b)) (Proc.devRef .tc main_v12) = _
  after_results
  rfl

/-- What the host line after the region leaves in the result buffer: the region's array, unflattened. -/
theorem tail_eq (c : Dev nD) :
    Pipeline.afterTail₀ cfgs (dats m) 0 (V0 m) [hostOps1] c main_v14
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v14) = _
  after_results
  rw [(Pipeline.withArrays_arr spec0 launch0.win.arr_inj c _ _ 3).trans (Blocks.final m c),
    rowsX_eq, weightT_eq, biasRow_eq]
  rfl

/-- THE KERNEL'S RUN, read: every weakly fair execution ends with the result buffer at `result` of the argument
    arrays as launched, and the arguments unchanged. -/
theorem run : θ_run defs (onTc (τ := τ) (main (F := Ideal))) ⟨m, fun _ => 0, ρ⟩ (fun r => ∀ c : Dev nD,
      r.2.mem ((c.tc : Thread nD τ).loc main_v14)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.ColumnScatter.lean ====
import proofs.«110289_j66872640799074_1_alg».proof.Proof.Gen.ReferenceIdeal
import proofs.«110289_j66872640799074_1_alg».proof.Proof.LibScatterFold
import Idealize.ShloMosaic.Lib.ValueIdx

/-!
  # Adding a block of columns into the projection

  The reference adds a `[32, 1024, 1024]` update into the `[32, 1024, 3072]` projection at a column offset `B` on the
  last axis (columns `B … B + 1023`, every batch and row): a scatter with one start index, whose window is the
  whole update.  Update element `(a, n, p)` lands at `(a, n, B + p)`, injectively.  So the result at `(a, n, o)` is the
  projection's element plus the update's element `(a, n, o - B)` when `B ≤ o < B + 1024`, and the projection's
  element otherwise.
-/

noncomputable section

namespace Cert.ReferenceIdeal.ColumnScatter

open Idealize.ShloMosaic Idealize.ShloMosaic.ValueIdx Cert.ReferenceIdeal Cert.ReferenceIdeal.Gen

/-- The scatter's dimension numbers: all three update axes are window axes, the one start component names operand
    axis 2. -/
abbrev D := scatter_S32x1024x3072_S1_S32x1024x1024_012_n_2_0

theorem start_0 (j : S32x1024x1024.Idx) (idx : IVec S1 32) : D.start j idx 0 = 0 := by
  unfold ScatterDims.start
  rw [dif_neg (show ¬ (0 : Fin S32x1024x3072.rank) ∈ D.scatterDimsToOperandDims by decide)]

theorem start_1 (j : S32x1024x1024.Idx) (idx : IVec S1 32) : D.start j idx 1 = 0 := by
  unfold ScatterDims.start
  rw [dif_neg (show ¬ (1 : Fin S32x1024x3072.rank) ∈ D.scatterDimsToOperandDims by decide)]

theorem start_2 (j : S32x1024x1024.Idx) (idx : IVec S1 32) (B : Int) (hidx : ∀ k, (idx k).toInt = B) :
    D.start j idx 2 = B := by
  unfold ScatterDims.start
  rw [dif_pos (show (2 : Fin S32x1024x3072.rank) ∈ D.scatterDimsToOperandDims by decide)]
  exact hidx _

theorem window_0 (j : S32x1024x1024.Idx) : D.window j 0 = (j 0).val := by
  unfold ScatterDims.window
  rw [dif_pos (show (0 : Fin S32x1024x3072.rank) ∈ D.sKept by decide)]
  rfl

theorem window_1 (j : S32x1024x1024.Idx) : D.window j 1 = (j 1).val := by
  unfold ScatterDims.window
  rw [dif_pos (show (1 : Fin S32x1024x3072.rank) ∈ D.sKept by decide)]
  rfl

theorem window_2 (j : S32x1024x1024.Idx) : D.window j 2 = (j 2).val := by
  unfold ScatterDims.window
  rw [dif_pos (show (2 : Fin S32x1024x3072.rank) ∈ D.sKept by decide)]
  rfl

/-- Where update element `j` lands when the columns start at `B`: the same batch and row, column `B + j 2`. -/
def land (B : Nat) (hB : B + 1024 ≤ 3072) (j : S32x1024x1024.Idx) : S32x1024x3072.Idx :=
  ix3 ⟨(j 0).val, (j 0).isLt⟩ ⟨(j 1).val, (j 1).isLt⟩
    ⟨B + (j 2).val, by have : (j 2).val < 1024 := (j 2).isLt; omega⟩

theorem land_injective (B : Nat) (hB : B + 1024 ≤ 3072) : Function.Injective (land B hB) := by
  intro j j' h
  have h0 : (j 0).val = (j' 0).val := congrArg (fun i : S32x1024x3072.Idx => (i 0).val) h
  have h1 : (j 1).val = (j' 1).val := congrArg (fun i : S32x1024x3072.Idx => (i 1).val) h
  have h2 : B + (j 2).val = B + (j' 2).val := congrArg (fun i : S32x1024x3072.Idx => (i 2).val) h
  rw [eq_ix3 j, eq_ix3 j']
  congr 1
  · exact Fin.ext h0
  · exact Fin.ext h1
  · exact Fin.ext (by omega)

/-- Every update element lands inside the projection, at `land B j`. -/
theorem resultIdx_eq (B : Nat) (hB : B + 1024 ≤ 3072) (idx : IVec S1 32) (hidx : ∀ k, (idx k).toInt = (B : Int))
    (j : S32x1024x1024.Idx) : D.resultIdx? j idx = some (land B hB j) := by
  have hj0 : (j 0).val < 32 := (j 0).isLt
  have hj1 : (j 1).val < 1024 := (j 1).isLt
  have hj2 : (j 2).val < 1024 := (j 2).isLt
  have hs0 : S32x1024x3072.size 0 = 32 := rfl
  have hs1 : S32x1024x3072.size 1 = 1024 := rfl
  have hs2 : S32x1024x3072.size 2 = 3072 := rfl
  unfold ScatterDims.resultIdx?
  have h : ∀ a, 0 ≤ D.start j idx a + D.window j a ∧ D.start j idx a + D.window j a < S32x1024x3072.size a := by
    intro a
    match a with
    | ⟨0, _⟩ =>
      show 0 ≤ D.start j idx 0 + D.window j 0 ∧ D.start j idx 0 + D.window j 0 < S32x1024x3072.size 0
      rw [start_0, window_0, hs0]; omega
    | ⟨1, _⟩ =>
      show 0 ≤ D.start j idx 1 + D.window j 1 ∧ D.start j idx 1 + D.window j 1 < S32x1024x3072.size 1
      rw [start_1, window_1, hs1]; omega
    | ⟨2, _⟩ =>
      show 0 ≤ D.start j idx 2 + D.window j 2 ∧ D.start j idx 2 + D.window j 2 < S32x1024x3072.size 2
      rw [start_2 j idx B hidx, window_2, hs2]; omega
  rw [dif_pos h]
  refine congrArg some (funext fun a => Fin.ext ?_)
  match a with
  | ⟨0, _⟩ =>
    show (D.start j idx 0 + D.window j 0).toNat = (j 0).val
    rw [start_0, window_0]; omega
  | ⟨1, _⟩ =>
    show (D.start j idx 1 + D.window j 1).toNat = (j 1).val
    rw [start_1, window_1]; omega
  | ⟨2, _⟩ =>
    show (D.start j idx 2 + D.window j 2).toNat = B + (j 2).val
    rw [start_2 j idx B hidx, window_2]; omega

variable {α : Type}

/-- Inside the column range the projection's element is combined with the update's element `(a, n, o - B)`. -/
theorem scatter_cols_in (f : α → α → α) (x : S32x1024x3072.Idx → α) (B : Nat) (hB : B + 1024 ≤ 3072) (idx : IVec S1 32)
    (hidx : ∀ k, (idx k).toInt = (B : Int)) (upd : S32x1024x1024.Idx → α) (a : Fin 32) (n : Fin 1024) (o : Fin 3072)
    (p : Fin 1024) (hp : o.val = B + p.val) :
    Host.scatter D f x idx upd (ix3 a n o) = f (x (ix3 a n o)) (upd (ix3 a n p)) := by
  have e : (ix3 a n o : S32x1024x3072.Idx) = land B hB (ix3 a n p) := by
    unfold land
    congr 1
    exact Fin.ext hp
  rw [e]
  exact Cert.ScatterFold.scatter_apply_image D f x idx upd (land B hB) (resultIdx_eq B hB idx hidx)
    (land_injective B hB) (ix3 a n p)

/-- Outside the column range the projection's element is kept. -/
theorem scatter_cols_out (f : α → α → α) (x : S32x1024x3072.Idx → α) (B : Nat) (hB : B + 1024 ≤ 3072) (idx : IVec S1 32)
    (hidx : ∀ k, (idx k).toInt = (B : Int)) (upd : S32x1024x1024.Idx → α) (a : Fin 32) (n : Fin 1024) (o : Fin 3072)
    (ho : o.val < B ∨ B + 1024 ≤ o.val) :
    Host.scatter D f x idx upd (ix3 a n o) = x (ix3 a n o) := by
  refine Cert.ScatterFold.scatter_apply_off_image D f x idx upd (land B hB) (resultIdx_eq B hB idx hidx) _ ?_
  intro j hj
  have h2 : B + (j 2).val = o.val := congrArg (fun i : S32x1024x3072.Idx => (i 2).val) hj
  have : (j 2).val < 1024 := (j 2).isLt
  omega

end Cert.ReferenceIdeal.ColumnScatter

end
-- ==== Proof.RefValue.lean ====
import proofs.«110289_j66872640799074_1_alg».proof.Proof.Gen.ReferenceIdeal.Read
import proofs.«110289_j66872640799074_1_alg».proof.Proof.ColumnScatter
import proofs.«110289_j66872640799074_1_alg».proof.Proof.LoraLaw
import Idealize.ShloMosaic.Lib.ValueIdx

/-!
  # The reference's result, entry by entry

  The reference projects the activations by the dense weight and adds the bias,

      `dense[a, n, o] = Σ_k x[a, n, k] · W[o, k] + b[o]`,

  computes each low-rank path in two steps, `(x · Aᵀ) · Bᵀ`, scaled by the constant one,

      `path[a, n, p] = (Σ_r (Σ_k x[a, n, k] · A[r, k]) · B[p, r]) · 1`,

  and adds the query path into the columns `0 … 1023` and the value path into the columns `2048 … 3071` of `dense`.
  Entry `(a, n, o)` of the result is `dense + path_q` at a query column, `dense` at a key column and
  `dense + path_v` at a value column.
-/

noncomputable section

namespace Cert.ReferenceIdeal.RefValue

open Idealize.ShloMosaic Idealize.ShloMosaic.ValueIdx Cert.ReferenceIdeal Cert.ReferenceIdeal.Gen Cert.ReferenceIdeal.Read
open scoped BigOperators

/-! ## The index maps of the generated stage lemmas, at coordinates -/

theorem lidx_v0 (a : Fin 32) (n : Fin 1024) (o : Fin 3072) (k : Fin 1024) : lidx_main_v0 (ix3 a n o) k = ix3 a n k :=
  funext fun ax => match ax with | ⟨0, _⟩ => rfl | ⟨1, _⟩ => rfl | ⟨2, _⟩ => rfl
theorem ridx_v0 (a : Fin 32) (n : Fin 1024) (o : Fin 3072) (k : Fin 1024) : ridx_main_v0 (ix3 a n o) k = ix2 o k :=
  funext fun ax => match ax with | ⟨0, _⟩ => rfl | ⟨1, _⟩ => rfl
theorem idx_v1_v2 (a : Fin 32) (n : Fin 1024) (o : Fin 3072) : idx_main_v1 (idx_main_v2 (ix3 a n o)) = ix1 o :=
  funext fun ax => match ax with | ⟨0, _⟩ => rfl
theorem lidx_v4 (a : Fin 32) (n : Fin 1024) (r : Fin 16) (k : Fin 1024) : lidx_main_v4 (ix3 a n r) k = ix3 a n k :=
  funext fun ax => match ax with | ⟨0, _⟩ => rfl | ⟨1, _⟩ => rfl | ⟨2, _⟩ => rfl
theorem ridx_v4 (a : Fin 32) (n : Fin 1024) (r : Fin 16) (k : Fin 1024) : ridx_main_v4 (ix3 a n r) k = ix2 r k :=
  funext fun ax => match ax with | ⟨0, _⟩ => rfl | ⟨1, _⟩ => rfl
theorem lidx_v5 (a : Fin 32) (n : Fin 1024) (p : Fin 1024) (r : Fin 16) : lidx_main_v5 (ix3 a n p) r = ix3 a n r :=
  funext fun ax => match ax with | ⟨0, _⟩ => rfl | ⟨1, _⟩ => rfl | ⟨2, _⟩ => rfl
theorem ridx_v5 (a : Fin 32) (n : Fin 1024) (p : Fin 1024) (r : Fin 16) : ridx_main_v5 (ix3 a n p) r = ix2 p r :=
  funext fun ax => match ax with | ⟨0, _⟩ => rfl | ⟨1, _⟩ => rfl
theorem lidx_v8 (a : Fin 32) (n : Fin 1024) (r : Fin 16) (k : Fin 1024) : lidx_main_v8 (ix3 a n r) k = ix3 a n k :=
  funext fun ax => match ax with | ⟨0, _⟩ => rfl | ⟨1, _⟩ => rfl | ⟨2, _⟩ => rfl
theorem ridx_v8 (a : Fin 32) (n : Fin 1024) (r : Fin 16) (k : Fin 1024) : ridx_main_v8 (ix3 a n r) k = ix2 r k :=
  funext fun ax => match ax with | ⟨0, _⟩ => rfl | ⟨1, _⟩ => rfl
theorem lidx_v9 (a : Fin 32) (n : Fin 1024) (p : Fin 1024) (r : Fin 16) : lidx_main_v9 (ix3 a n p) r = ix3 a n r :=
  funext fun ax => match ax with | ⟨0, _⟩ => rfl | ⟨1, _⟩ => rfl | ⟨2, _⟩ => rfl
theorem ridx_v9 (a : Fin 32) (n : Fin 1024) (p : Fin 1024) (r : Fin 16) : ridx_main_v9 (ix3 a n p) r = ix2 p r :=
  funext fun ax => match ax with | ⟨0, _⟩ => rfl | ⟨1, _⟩ => rfl

/-! ## The three pieces -/

variable (x0 : (⟨S32x1024x1024, .f32⟩ : BufTy).Contents (Elt Ideal)) (x1 : (⟨S3072x1024, .f32⟩ : BufTy).Contents (Elt Ideal))
  (x2 : (⟨S3072, .f32⟩ : BufTy).Contents (Elt Ideal)) (x3 : (⟨S16x1024, .f32⟩ : BufTy).Contents (Elt Ideal))
  (x4 : (⟨S1024x16, .f32⟩ : BufTy).Contents (Elt Ideal)) (x5 : (⟨S16x1024, .f32⟩ : BufTy).Contents (Elt Ideal))
  (x6 : (⟨S1024x16, .f32⟩ : BufTy).Contents (Elt Ideal))

/-- The dense projection with its bias. -/
theorem dense_apply (a : Fin 32) (n : Fin 1024) (o : Fin 3072) :
    val_main_v3 (F := Ideal) x0 x1 x2 (ix3 a n o) = (∑ k : Fin 1024, x0 (ix3 a n k) * x1 (ix2 o k)) + x2 (ix1 o) := by
  rw [val_main_v3_apply, val_main_v0_apply, val_main_v2_apply, val_main_v1_apply, idx_v1_v2]
  simp only [lidx_v0, ridx_v0]
  rfl

/-- The query path, scaled. -/
theorem query_path_apply (a : Fin 32) (n : Fin 1024) (p : Fin 1024) :
    val_main_v7 (F := Ideal) x0 x3 x4 (ix3 a n p)
      = (∑ r : Fin 16, (∑ k : Fin 1024, x0 (ix3 a n k) * x3 (ix2 r k)) * x4 (ix2 p r)) * (1 : EReal) := by
  rw [val_main_v7_apply, val_main_v5_apply, val_main_v6_apply, val_main_cst_apply]
  simp only [lidx_v5, ridx_v5, val_main_v4_apply, lidx_v4, ridx_v4]
  show _ * Ideal.ofBits .f32 0x3F800000#32 = _
  rw [Cert.LoraLaw.ofBits_one]

/-- The value path, scaled. -/
theorem value_path_apply (a : Fin 32) (n : Fin 1024) (p : Fin 1024) :
    val_main_v11 (F := Ideal) x0 x5 x6 (ix3 a n p)
      = (∑ r : Fin 16, (∑ k : Fin 1024, x0 (ix3 a n k) * x5 (ix2 r k)) * x6 (ix2 p r)) * (1 : EReal) := by
  rw [val_main_v11_apply, val_main_v9_apply, val_main_v10_apply, val_main_cst_0_apply]
  simp only [lidx_v9, ridx_v9, val_main_v8_apply, lidx_v8, ridx_v8]
  show _ * Ideal.ofBits .f32 0x3F800000#32 = _
  rw [Cert.LoraLaw.ofBits_one]

theorem start_zero (k : S1.Idx) : ((val_main_v12 (F := Ideal)) k).toInt = ((0 : Nat) : Int) := by
  show (0#32 : BitVec 32).toInt = _
  decide

theorem start_2048 (k : S1.Idx) : ((val_main_v14 (F := Ideal)) k).toInt = ((2048 : Nat) : Int) := by
  show (2048#32 : BitVec 32).toInt = _
  decide

/-! ## The result by column range -/

/-- A query column: the dense projection plus the query path. -/
theorem result_query (a : Fin 32) (n : Fin 1024) (o : Fin 3072) (p : Fin 1024) (hp : o.val = p.val) :
    val_main_v15 (F := Ideal) x0 x1 x2 x3 x4 x5 x6 (ix3 a n o)
      = ((∑ k : Fin 1024, x0 (ix3 a n k) * x1 (ix2 o k)) + x2 (ix1 o))
        + (∑ r : Fin 16, (∑ k : Fin 1024, x0 (ix3 a n k) * x3 (ix2 r k)) * x4 (ix2 p r)) * (1 : EReal) := by
  have hp' : p.val < 1024 := p.isLt
  unfold val_main_v15
  rw [ColumnScatter.scatter_cols_out FloatOps.addf _ 2048 (by omega) _ start_2048 _ a n o (Or.inl (by omega))]
  unfold val_main_v13
  rw [ColumnScatter.scatter_cols_in FloatOps.addf _ 0 (by omega) _ start_zero _ a n o p (by omega),
    dense_apply, query_path_apply]
  rfl

/-- A key column: the dense projection alone. -/
theorem result_key (a : Fin 32) (n : Fin 1024) (o : Fin 3072) (h1 : 1024 ≤ o.val) (h2 : o.val < 2048) :
    val_main_v15 (F := Ideal) x0 x1 x2 x3 x4 x5 x6 (ix3 a n o)
      = (∑ k : Fin 1024, x0 (ix3 a n k) * x1 (ix2 o k)) + x2 (ix1 o) := by
  unfold val_main_v15
  rw [ColumnScatter.scatter_cols_out FloatOps.addf _ 2048 (by omega) _ start_2048 _ a n o (Or.inl (by omega))]
  unfold val_main_v13
  rw [ColumnScatter.scatter_cols_out FloatOps.addf _ 0 (by omega) _ start_zero _ a n o (Or.inr (by omega)),
    dense_apply]

/-- A value column: the dense projection plus the value path. -/
theorem result_value (a : Fin 32) (n : Fin 1024) (o : Fin 3072) (p : Fin 1024) (hp : o.val = 2048 + p.val) :
    val_main_v15 (F := Ideal) x0 x1 x2 x3 x4 x5 x6 (ix3 a n o)
      = ((∑ k : Fin 1024, x0 (ix3 a n k) * x1 (ix2 o k)) + x2 (ix1 o))
        + (∑ r : Fin 16, (∑ k : Fin 1024, x0 (ix3 a n k) * x5 (ix2 r k)) * x6 (ix2 p r)) * (1 : EReal) := by
  unfold val_main_v15
  rw [ColumnScatter.scatter_cols_in FloatOps.addf _ 2048 (by omega) _ start_2048 _ a n o p hp]
  unfold val_main_v13
  rw [ColumnScatter.scatter_cols_out FloatOps.addf _ 0 (by omega) _ start_zero _ a n o (Or.inr (by omega)),
    dense_apply, value_path_apply]
  rfl

end Cert.ReferenceIdeal.RefValue

end
-- ==== Proof.LibFiniteEntries.lean ====
import Idealize.ShloMosaic.Lib.ReduceAll
import Idealize.ShloMosaic.Lib.ValueIdx
import Idealize.ShloMosaic.PureOps.Ideal.Laws

/-!
  # "Every entry is finite", read back from a precondition

  A precondition states finiteness of a float array `a` as `jnp.all(jnp.abs(a) < inf)`: the comparison of `|a|` with the
  constant `+inf`, element by element, reduced by `and` over every axis from the constant `true`, and it says the result
  is `true`.  On the extended reals `|x| = max x (-x)`, the constant `0x7F800000` denotes `⊤`, and `max x (-x) < ⊤` holds
  exactly when `x` is neither infinity, that is, when `x` is a real number.  So the precondition gives, for every index, a
  real number the entry equals — for an array of any shape.
-/

noncomputable section

namespace Cert.FiniteEntries

open Idealize.ShloMosaic Idealize.ShloMosaic.ValueIdx

/-- The word of `+inf` denotes the top of the extended reals. -/
theorem ofBits_inf : Ideal.ofBits .f32 0x7F800000#32 = ⊤ := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and`-reduction of `|a| < +inf` over all axes is `true`, every entry of `a` is a real number. -/
theorem entries_real {s : Shape} {axes : List (Fin s.rank)} (a : FVec Ideal s .f32)
    (hb : (⟨0, ![]⟩ : Shape).BroadcastsInDim s ![]) (h : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) h hu ix0 = 1#1)
    (i : s.Idx) : ∃ r : ℝ, a i = (r : EReal) := by
  have hi := Host.reduce_andi_all _ _ h hu ix0 e i
  have h2 : Ideal.cmp .olt (max (a i) (-(a i))) (Ideal.ofBits .f32 0x7F800000#32) = 1#1 := hi
  rw [ofBits_inf] at h2
  refine real_of_abs_lt_top _ ?_
  by_contra hn
  simp [Ideal.cmp, hn] at h2

end Cert.FiniteEntries

end
-- ==== Proof.Finite.lean ====
import proofs.«110289_j66872640799074_1_alg».proof.Proof.Gen.Pre_finite_inputs
import proofs.«110289_j66872640799074_1_alg».proof.Proof.LibFiniteEntries

/-!
  # The precondition, read back

  The precondition is the conjunction, over the seven argument arrays, of "every entry's absolute value is below
  `+inf`".  Split at its six `and`s it gives, for each array, that every entry is a real number.
-/

noncomputable section

namespace Cert.Pre_finite_inputs.Finite

open Idealize.ShloMosaic Idealize.ShloMosaic.ValueIdx Cert.Pre_finite_inputs Cert.Pre_finite_inputs.Gen

/-- Every entry of `a` is a real number. -/
def AllReal {s : Shape} (a : FVec Ideal s .f32) : Prop := ∀ i : s.Idx, ∃ r : ℝ, a i = (r : EReal)

/-- Under the precondition every entry of every argument array is a real number. -/
theorem all_real (a0 : FVec Ideal S32x1024x1024 .f32) (a1 : FVec Ideal S3072x1024 .f32) (a2 : FVec Ideal S3072 .f32)
    (a3 : FVec Ideal S16x1024 .f32) (a4 : FVec Ideal S1024x16 .f32) (a5 : FVec Ideal S16x1024 .f32)
    (a6 : FVec Ideal S1024x16 .f32) (h : fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨Cert.FiniteEntries.entries_real a0 _ _ _ e0, Cert.FiniteEntries.entries_real a1 _ _ _ e1,
    Cert.FiniteEntries.entries_real a2 _ _ _ e2, Cert.FiniteEntries.entries_real a3 _ _ _ e3,
    Cert.FiniteEntries.entries_real a4 _ _ _ e4, Cert.FiniteEntries.entries_real a5 _ _ _ e5,
    Cert.FiniteEntries.entries_real a6 _ _ _ e6⟩

end Cert.Pre_finite_inputs.Finite

end
-- ==== Proof.Bridge.lean ====
import proofs.«110289_j66872640799074_1_alg».proof.Proof.KernelValue
import proofs.«110289_j66872640799074_1_alg».proof.Proof.RefValue
import proofs.«110289_j66872640799074_1_alg».proof.Proof.Finite
import proofs.«110289_j66872640799074_1_alg».proof.Proof.LoraLaw

/-!
  # The two results are one function

  At `(a, n, o)` the kernel contracts the activation row `(a, n)` with row `o` of the effective weight and adds the
  bias; the reference adds the bias to the dense projection and then the low-rank path of the column's range.  On a
  query column the effective weight's row is `W[o, ·] + 1 · (B_q · A_q)[o, ·]`, and the two agree by the folding law
  (distributivity and an exchange of sums, at real entries); the same on a value column with `A_v`, `B_v` at row
  `o - 2048`; on a key column neither side has a low-rank term.
-/

noncomputable section

namespace Cert.Bridge

open Idealize.ShloMosaic Idealize.ShloMosaic.ValueIdx
open Cert.Pre_finite_inputs.Finite (AllReal)
open scoped BigOperators

/-- For real-valued arguments the kernel's result is the reference's. -/
theorem result_eq (x : Vec Ideal Cert.KernelIdeal.S32x1024x1024 .f32) (W : Vec Ideal Cert.KernelIdeal.S3072x1024 .f32)
    (b : Vec Ideal Cert.KernelIdeal.S3072 .f32) (Aq : Vec Ideal Cert.KernelIdeal.S16x1024 .f32)
    (Bq : Vec Ideal Cert.KernelIdeal.S1024x16 .f32) (Av : Vec Ideal Cert.KernelIdeal.S16x1024 .f32)
    (Bv : Vec Ideal Cert.KernelIdeal.S1024x16 .f32)
    (hx : AllReal x) (hW : AllReal W) (hb : AllReal b) (hAq : AllReal Aq) (hBq : AllReal Bq) (hAv : AllReal Av)
    (hBv : AllReal Bv) :
    Cert.KernelIdeal.KValue.result x W b Aq Bq Av Bv
      = Cert.ReferenceIdeal.Read.val_main_v15 (F := Ideal) x W b Aq Bq Av Bv := by
  funext i
  obtain ⟨a, n, o, rfl⟩ : ∃ (a : Fin 32) (n : Fin 1024) (o : Fin 3072), i = ix3 a n o := ⟨i 0, i 1, i 2, eq_ix3 i⟩
  rw [Cert.KernelIdeal.KValue.result_apply]
  choose xr hxr using hx
  choose Wr hWr using hW
  choose br hbr using hb
  choose Aqr hAqr using hAq
  choose Bqr hBqr using hBq
  choose Avr hAvr using hAv
  choose Bvr hBvr using hBv
  have ho : o.val < 3072 := o.isLt
  by_cases h1 : o.val < 1024
  · -- a query column
    rw [Cert.ReferenceIdeal.RefValue.result_query x W b Aq Bq Av Bv a n o ⟨o.val, h1⟩ rfl,
      Finset.sum_congr rfl (fun k _ => by
        rw [Cert.KernelIdeal.EffWeight.weff_query W Aq Bq Av Bv o k ⟨o.val, h1⟩ rfl])]
    simp only [hxr, hWr, hbr, hAqr, hBqr]
    exact Cert.LoraLaw.fold (fun k : Fin 1024 => xr (ix3 a n k)) (fun k => Wr (ix2 o k))
      (fun (r : Fin 16) k => Aqr (ix2 r k)) (fun r => Bqr (ix2 ⟨o.val, h1⟩ r)) (br (ix1 o))
  · by_cases h2 : o.val < 2048
    · -- a key column
      rw [Cert.ReferenceIdeal.RefValue.result_key x W b Aq Bq Av Bv a n o (by omega) h2,
        Finset.sum_congr rfl (fun k _ => by
          rw [Cert.KernelIdeal.EffWeight.weff_key W Aq Bq Av Bv o k (by omega) h2])]
    · -- a value column
      have hp : o.val = 2048 + (⟨o.val - 2048, by omega⟩ : Fin 1024).val := by
        show o.val = 2048 + (o.val - 2048); omega
      rw [Cert.ReferenceIdeal.RefValue.result_value x W b Aq Bq Av Bv a n o ⟨o.val - 2048, by omega⟩ hp,
        Finset.sum_congr rfl (fun k _ => by
          rw [Cert.KernelIdeal.EffWeight.weff_value W Aq Bq Av Bv o k ⟨o.val - 2048, by omega⟩ hp])]
      simp only [hxr, hWr, hbr, hAvr, hBvr]
      exact Cert.LoraLaw.fold (fun k : Fin 1024 => xr (ix3 a n k)) (fun k => Wr (ix2 o k))
        (fun (r : Fin 16) k => Avr (ix2 r k)) (fun r => Bvr (ix2 ⟨o.val - 2048, by omega⟩ r)) (br (ix1 o))

end Cert.Bridge

end
-- ==== Proof.lean ====
/-
  The fused QKV projection with low-rank (LoRA) updates on the query and value slices.

  Reference:  qkv = x · Wᵀ + b  over `[32, 1024, 1024] × [3072, 1024]`, then the low-rank paths
  `((x · A_qᵀ) · B_qᵀ) · 1` and `((x · A_vᵀ) · B_vᵀ) · 1` are added into the columns `0 … 1023` and `2048 … 3071`.
  Kernel:     the low-rank products are first added INTO THE WEIGHT, `W_eff = W + 1 · (B_q · A_q)` on the query rows and
  `W + 1 · (B_v · A_v)` on the value rows, and one tiled matrix product `x · W_effᵀ + b` is taken (inputs rounded to bf16,
  which is the identity on the extended reals).

  The two agree entry by entry because the product distributes over the sum in the weight and the two summations
  (over the feature axis and over the rank) exchange — laws of the real numbers, used under the precondition that
  every input entry is finite.  The modules:
    * LibScatterFold — a scatter with any body read at an index that at most one update reaches;
      WeightScatter / ColumnScatter — where the updates of the two programs' scatters land;
    * EffWeight — the effective weight's rows;  KernelBody — one output block's entries;
      KernelBlocks — the blocks tile one whole product;  KernelValue — the kernel's run with its result named;
    * RefValue — the reference's last stage by column range;  LibFiniteEntries / Finite — the precondition read back;
    * LoraLaw — the law;  Bridge — the two results are one function.
  The frames of the two kernel programs are the generated ones; the reference's frame is its generated run.
-/
import proofs.«110289_j66872640799074_1_alg».proof.Defs
import proofs.«110289_j66872640799074_1_alg».proof.Proof.Gen.Kernel
import proofs.«110289_j66872640799074_1_alg».proof.Proof.Gen.Kernel.Skeleton
import proofs.«110289_j66872640799074_1_alg».proof.Proof.Gen.Kernel.Launch
import proofs.«110289_j66872640799074_1_alg».proof.Proof.Gen.Kernel.Points
import proofs.«110289_j66872640799074_1_alg».proof.Proof.Gen.Kernel.Frame
import proofs.«110289_j66872640799074_1_alg».proof.Proof.Gen.KernelIdeal
import proofs.«110289_j66872640799074_1_alg».proof.Proof.Gen.KernelIdeal.Skeleton
import proofs.«110289_j66872640799074_1_alg».proof.Proof.Gen.KernelIdeal.Launch
import proofs.«110289_j66872640799074_1_alg».proof.Proof.Gen.KernelIdeal.Points
import proofs.«110289_j66872640799074_1_alg».proof.Proof.Gen.KernelIdeal.Frame
import proofs.«110289_j66872640799074_1_alg».proof.Proof.Gen.ReferenceIdeal
import proofs.«110289_j66872640799074_1_alg».proof.Proof.Gen.Pre_finite_inputs
import proofs.«110289_j66872640799074_1_alg».proof.Proof.Gen.ReferenceIdeal.Run
import proofs.«110289_j66872640799074_1_alg».proof.Proof.Gen.ReferenceIdeal.Read
import proofs.«110289_j66872640799074_1_alg».proof.Proof.KernelValue
import proofs.«110289_j66872640799074_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same `[32, 1024, 3072]` array: the kernel's run names its result as a function of the
    arguments, the reference's run names its last stage, and for finite arguments the two functions agree. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r1, r2, r3, r4, r5, r6⟩ := Cert.Pre_finite_inputs.Finite.all_real _ _ _ _ _ _ _ (hpre c)
  rw [Cert.ReferenceIdeal.Read.val_main_v15_eq, a0, a1, a2, a3, a4, a5, a6]
  exact (Cert.Bridge.result_eq _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
